-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x640 : Shape := ⟨3, ![8, 64, 640]⟩
abbrev S512x512 : Shape := ⟨2, ![512, 512]⟩
abbrev S512 : Shape := ⟨1, ![512]⟩
abbrev S640x512 : Shape := ⟨2, ![640, 512]⟩
abbrev S512x1024 : Shape := ⟨2, ![512, 1024]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x640 : S_.BroadcastsInDim S8x64x640 (![] : Fin 0 → Fin S8x64x640.rank)
  reducesTo_S8x64x640_S_d0_1_2 : S8x64x640.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S640x512 : S_.BroadcastsInDim S640x512 (![] : Fin 0 → Fin S640x512.rank)
  reducesTo_S640x512_S_d0_1 : S640x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S640x512 .f32) (main_arg5 : FVec F S512 .f32) (main_arg6 : FVec F S512x1024 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S640x512 .f32 := Host.absf main_arg4
  let main_cst_6 : FVec F S_ .f32 := constant S_ .f32 0x7F800000#32
  let main_v20 : FVec F S640x512 .f32 := broadcastInDim S640x512 ![] bcast_S_S640x512 main_cst_6
  let main_v21 : IVec S640x512 1 := cmpf .olt main_v19 main_v20
  let main_c_7 : IVec S_ 1 := constantI S_ 1 1#1
  let main_v22 : IVec S_ 1 := (fun x v => Host.reduce IntOp.andi x v reducesTo_S640x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S8x256x512 .f32) (main_arg1 : FVec F S8x64x640 .f32) (main_arg2 : FVec F S512x512 .f32) (main_arg3 : FVec F S512 .f32) (main_arg4 : FVec F S640x512 .f32) (main_arg5 : FVec F S512 .f32) (main_arg6 : FVec F S512x1024 .f32) (main_arg7 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x640 .f32 := Host.absf main_arg1
  let main_cst_0 : FVec F S_ .f32 := constant S_ .f32 0x7F800000#32
  let main_v5 : FVec F S8x64x640 .f32 := broadcastInDim S8x64x640 ![] bcast_S_S8x64x640 main_cst_0
  let main_v6 : IVec S8x64x640 1 := cmpf .olt main_v4 main_v5
  let main_c_1 : IVec S_ 1 := constantI S_ 1 1#1
  let main_v7 : IVec S_ 1 := (fun x v => Host.reduce IntOp.andi x v reducesTo_S8x64x640_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x256x512 : Shape := ⟨3, ![8, 256, 512]⟩
abbrev S8x64x640 : Shape := ⟨3, ![8, 64, 640]⟩
abbrev S512x512 : Shape := ⟨2, ![512, 512]⟩
abbrev S512 : Shape := ⟨1, ![512]⟩
abbrev S640x512 : Shape := ⟨2, ![640, 512]⟩
abbrev S512x1024 : Shape := ⟨2, ![512, 1024]⟩
abbrev S1024 : Shape := ⟨1, ![1024]⟩
abbrev S8x256x64x1024 : Shape := ⟨4, ![8, 256, 64, 1024]⟩
abbrev S1x32x512 : Shape := ⟨3, ![1, 32, 512]⟩
abbrev S1x64x640 : Shape := ⟨3, ![1, 64, 640]⟩
abbrev S1x32x64x1024 : Shape := ⟨4, ![1, 32, 64, 1024]⟩
abbrev S32x512 : Shape := ⟨2, ![32, 512]⟩
abbrev S64x640 : Shape := ⟨2, ![64, 640]⟩
abbrev S64x512 : Shape := ⟨2, ![64, 512]⟩
abbrev S1x512 : Shape := ⟨2, ![1, 512]⟩
abbrev S1x1x1024 : Shape := ⟨3, ![1, 1, 1024]⟩
abbrev S16x512 : Shape := ⟨2, ![16, 512]⟩
abbrev S32x1x512 : Shape := ⟨3, ![32, 1, 512]⟩
abbrev S1x16x512 : Shape := ⟨3, ![1, 16, 512]⟩
abbrev S32x16x512 : Shape := ⟨3, ![32, 16, 512]⟩
abbrev S32x16x1024 : Shape := ⟨3, ![32, 16, 1024]⟩
abbrev S1x32x16x1024 : Shape := ⟨4, ![1, 32, 16, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8x256x512, .f32⟩
  | .hbm, ⟨1, _⟩ => ⟨S8x64x640, .f32⟩
  | .hbm, ⟨2, _⟩ => ⟨S512x512, .f32⟩
  | .hbm, ⟨3, _⟩ => ⟨S512, .f32⟩
  | .hbm, ⟨4, _⟩ => ⟨S640x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S512x512, .bf16⟩
  | .hbm, ⟨9, _⟩ => ⟨S640x512, .bf16⟩
  | .hbm, ⟨10, _⟩ => ⟨S512x1024, .bf16⟩
  | .hbm, ⟨11, _⟩ => ⟨S512, .f32⟩
  | .hbm, ⟨12, _⟩ => ⟨S8x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x64x640, .f32⟩
  | .local _ .vmem, ⟨3, _⟩ => ⟨S1x64x640, .f32⟩
  | .local _ .vmem, ⟨4, _⟩ => ⟨S512x512, .bf16⟩
  | .local _ .vmem, ⟨5, _⟩ => ⟨S640x512, .bf16⟩
  | .local _ .vmem, ⟨6, _⟩ => ⟨S512, .f32⟩
  | .local _ .vmem, ⟨7, _⟩ => ⟨S512x1024, .bf16⟩
  | .local _ .vmem, ⟨8, _⟩ => ⟨S1024, .f32⟩
  | .local _ .vmem, ⟨9, _⟩ => ⟨S1x32x64x1024, .f32⟩
  | .local _ .vmem, ⟨10, _⟩ => ⟨S1x32x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  inb_S640x512_S640x512_0_0 : ∀ a, (![0, 0] : Fin 2 → Nat) a + S640x512.size a ≤ S640x512.size a
  h_S640x512 : 0 < S640x512.numel
  shapeCasts_S640x512_S640x512 : S640x512.ShapeCasts S640x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S64x512 : S1x512.Broadcasts S64x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1x1024 : S1024.ShapeCasts S1x1x1024
  slices_S64x512_o0_0_S16x512 : S64x512.Slices ![0, 0] S16x512
  shapeCasts_S32x512_S32x1x512 : S32x512.ShapeCasts S32x1x512
  shapeCasts_S16x512_S1x16x512 : S16x512.ShapeCasts S1x16x512
  broadcasts_S32x1x512_S32x16x512 : S32x1x512.Broadcasts S32x16x512
  broadcasts_S1x16x512_S32x16x512 : S1x16x512.Broadcasts S32x16x512
  shapeCasts_S32x16x512_S512x512 : S32x16x512.ShapeCasts S512x512
  shapeCasts_S512x1024_S32x16x1024 : S512x1024.ShapeCasts S32x16x1024
  broadcasts_S1x1x1024_S32x16x1024 : S1x1x1024.Broadcasts S32x16x1024
  inb_S1x32x64x1024_S1x32x16x1024_0_0_0_0 : ∀ a, (![0, 0, 0, 0] : Fin 4 → Nat) a + S1x32x16x1024.size a ≤ S1x32x64x1024.size a
  h_S1x32x16x1024 : 0 < S1x32x16x1024.numel
  shapeCasts_S1x32x16x1024_S32x16x1024 : S1x32x16x1024.ShapeCasts S32x16x1024
  shapeCasts_S32x16x1024_S1x32x16x1024 : S32x16x1024.ShapeCasts S1x32x16x1024
  slices_S64x512_o16_0_S16x512 : S64x512.Slices ![16, 0] S16x512
  inb_S1x32x64x1024_S1x32x16x1024_0_0_16_0 : ∀ a, (![0, 0, 16, 0] : Fin 4 → Nat) a + S1x32x16x1024.size a ≤ S1x32x64x1024.size a
  slices_S64x512_o32_0_S16x512 : S64x512.Slices ![32, 0] S16x512
  inb_S1x32x64x1024_S1x32x16x1024_0_0_32_0 : ∀ a, (![0, 0, 32, 0] : Fin 4 → Nat) a + S1x32x16x1024.size a ≤ S1x32x64x1024.size a
  slices_S64x512_o48_0_S16x512 : S64x512.Slices ![48, 0] S16x512
  inb_S1x32x64x1024_S1x32x16x1024_0_0_48_0 : ∀ a, (![0, 0, 48, 0] : Fin 4 → Nat) a + S1x32x16x1024.size a ≤ S1x32x64x1024.size a
  dot_S32x512_S512x512_S32x512_1_0_0_1_n_n_wf : DotDims.WF S32x512 S512x512 S32x512 [1] [0] [0] [1] [] []
  dot_S64x640_S640x512_S64x512_1_0_0_1_n_n_wf : DotDims.WF S64x640 S640x512 S64x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x256x512.size a
  hwx0_0 : ∀ i : grid0.Coords, EltTy.bits .f32 = 32 ∨ (Rect.block (s := S8x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S8x64x640.size a
  hwx0_1 : ∀ i : grid0.Coords, EltTy.bits .f32 = 32 ∨ (Rect.block (s := S8x64x640) S1x64x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x512.size a ≤ S640x512.size a
  hwx0_3 : ∀ i : grid0.Coords, EltTy.bits .bf16 = 32 ∨ (Rect.block (s := S640x512) S640x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x64x1024.size a ≤ S8x256x64x1024.size a
  hwx0_7 : ∀ i : grid0.Coords, EltTy.bits .f32 = 32 ∨ (Rect.block (s := S8x256x64x1024) S1x32x64x1024.size (cc0_transform_7 i) (hinb0_7 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S64x640_S640x512_S64x512_1_0_0_1_n_n : DotDims S64x640 S640x512 S64x512 where
  lhsContracting := [1]
  rhsContracting := [0]
  lhsNonContracting := [0]
  rhsNonContracting := [1]
  lhsBatch := []
  rhsBatch := []
  wf := dot_S64x640_S640x512_S64x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S640x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x32x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x640 : Shape := ⟨3, ![8, 64, 640]⟩
abbrev S512x512 : Shape := ⟨2, ![512, 512]⟩
abbrev S512 : Shape := ⟨1, ![512]⟩
abbrev S640x512 : Shape := ⟨2, ![640, 512]⟩
abbrev S512x1024 : Shape := ⟨2, ![512, 1024]⟩
abbrev S1024 : Shape := ⟨1, ![1024]⟩
abbrev S1x1x512 : Shape := ⟨3, ![1, 1, 512]⟩
abbrev S8x64x512 : Shape := ⟨3, ![8, 64, 512]⟩
abbrev S8x256x1x512 : Shape := ⟨4, ![8, 256, 1, 512]⟩
abbrev S8x1x64x512 : Shape := ⟨4, ![8, 1, 64, 512]⟩
abbrev S8x256x64x512 : Shape := ⟨4, ![8, 256, 64, 512]⟩
abbrev S8x256x64x1024 : Shape := ⟨4, ![8, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x640, .f32⟩
  | .hbm, ⟨2, _⟩ => ⟨S512x512, .f32⟩
  | .hbm, ⟨3, _⟩ => ⟨S512, .f32⟩
  | .hbm, ⟨4, _⟩ => ⟨S640x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S8x256x512, .f32⟩
  | .hbm, ⟨9, _⟩ => ⟨S1x1x512, .f32⟩
  | .hbm, ⟨10, _⟩ => ⟨S8x256x512, .f32⟩
  | .hbm, ⟨11, _⟩ => ⟨S8x256x512, .f32⟩
  | .hbm, ⟨12, _⟩ => ⟨S8x64x512, .f32⟩
  | .hbm, ⟨13, _⟩ => ⟨S1x1x512, .f32⟩
  | .hbm, ⟨14, _⟩ => ⟨S8x64x512, .f32⟩
  | .hbm, ⟨15, _⟩ => ⟨S8x64x512, .f32⟩
  | .hbm, ⟨16, _⟩ => ⟨S8x256x1x512, .f32⟩
  | .hbm, ⟨17, _⟩ => ⟨S8x1x64x512, .f32⟩
  | .hbm, ⟨18, _⟩ => ⟨S8x256x64x512, .f32⟩
  | .hbm, ⟨19, _⟩ => ⟨S8x256x64x512, .f32⟩
  | .hbm, ⟨20, _⟩ => ⟨S8x256x64x512, .f32⟩
  | .hbm, ⟨21, _⟩ => ⟨S8x256x64x512, .f32⟩
  | .hbm, ⟨22, _⟩ => ⟨S8x256x64x1024, .f32⟩
  | .hbm, ⟨23, _⟩ => ⟨S1x1x1x1024, .f32⟩
  | .hbm, ⟨24, _⟩ => ⟨S8x256x64x1024, .f32⟩
  | .hbm, ⟨25, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x256x512_0_1_2 : S1x1x512.BroadcastsInDim S8x256x512 (![0, 1, 2] : Fin 3 → Fin S8x256x512.rank)
  bcast_S1x1x512_S8x64x512_0_1_2 : S1x1x512.BroadcastsInDim S8x64x512 (![0, 1, 2] : Fin 3 → Fin S8x64x512.rank)
  bcast_S8x256x512_S8x256x1x512_0_1_3 : S8x256x512.BroadcastsInDim S8x256x1x512 (![0, 1, 3] : Fin 3 → Fin S8x256x1x512.rank)
  bcast_S8x64x512_S8x1x64x512_0_2_3 : S8x64x512.BroadcastsInDim S8x1x64x512 (![0, 2, 3] : Fin 3 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x512_S512x512_S8x256x512_2_0_01_1_n_n_wf : DotDims.WF S8x256x512 S512x512 S8x256x512 [2] [0] [0, 1] [1] [] []
  dot_S8x64x640_S640x512_S8x64x512_2_0_01_1_n_n_wf : DotDims.WF S8x64x640 S640x512 S8x64x512 [2] [0] [0, 1] [1] [] []
  dot_S8x256x64x512_S512x1024_S8x256x64x1024_3_0_012_1_n_n_wf : DotDims.WF S8x256x64x512 S512x1024 S8x256x64x1024 [3] [0] [0, 1, 2] [1] [] []

variable [Facts₀]

def dot_S8x256x512_S512x512_S8x256x512_2_0_01_1_n_n : DotDims S8x256x512 S512x512 S8x256x512 where
  lhsContracting := [2]
  rhsContracting := [0]
  lhsNonContracting := [0, 1]
  rhsNonContracting := [1]
  lhsBatch := []
  rhsBatch := []
  wf := dot_S8x256x512_S512x512_S8x256x512_2_0_01_1_n_n_wf
def dot_S8x64x640_S640x512_S8x64x512_2_0_01_1_n_n : DotDims S8x64x640 S640x512 S8x64x512 where
  lhsContracting := [2]
  rhsContracting := [0]
  lhsNonContracting := [0, 1]
  rhsNonContracting := [1]
  lhsBatch := []
  rhsBatch := []
  wf := dot_S8x64x640_S640x512_S8x64x512_2_0_01_1_n_n_wf
def dot_S8x256x64x512_S512x1024_S8x256x64x1024_3_0_012_1_n_n : DotDims S8x256x64x512 S512x1024 S8x256x64x1024 where
  lhsContracting := [3]
  rhsContracting := [0]
  lhsNonContracting := [0, 1, 2]
  rhsNonContracting := [1]
  lhsBatch := []
  rhsBatch := []
  wf := dot_S8x256x64x512_S512x1024_S8x256x64x1024_3_0_012_1_n_n_wf

class Facts : Prop extends Facts₀ where

variable [Facts]
-- ==== Proof.JointSpec.lean ====
/-
  The joint network of an RNN-T as ONE function of its eight argument arrays, index by index, over the extended reals.

  With  A(b,t,j) = Σ_d enc[b,t,d]·W_enc[d,j]   (the encoder projection, before its bias)
        P(b,u,j) = Σ_d pred[b,u,d]·W_pred[d,j]  (the prediction projection, before its bias)
  the hidden unit is  h(b,t,u,j) = tanh (A(b,t,j) + (P(b,u,j) + (b_enc[j] + b_pred[j])))  and the logit is
        logit(b,t,u,v) = Σ_j h(b,t,u,j)·W_joint[j,v] + b_joint[v].
  The two biases are grouped as a single bias added on the prediction side; `regroup` is the one law that turns
  "each projection with its own bias, then added" into that grouping: addition on the extended reals is commutative
  and associative (also at the infinities), so no finiteness is needed.
-/
import Idealize.ShloMosaic.PureOps.Ideal
import Idealize.ShloMosaic.Lib.ValueIdx

noncomputable section

namespace Cert.Joint

open Idealize.ShloMosaic Idealize.ShloMosaic.ValueIdx

/-- Row `(b, t)` of the encoder output against column `j` of `W_enc`. -/
def encDot (enc : (⟨3, ![8, 256, 512]⟩ : Shape).Idx → EReal) (We : (⟨2, ![512, 512]⟩ : Shape).Idx → EReal)
    (b : Fin 8) (t : Fin 256) (j : Fin 512) : EReal :=
  ∑ d : Fin 512, enc (ix3 b t d) * We (ix2 d j)

/-- Row `(b, u)` of the prediction output against column `j` of `W_pred`. -/
def predDot (pred : (⟨3, ![8, 64, 640]⟩ : Shape).Idx → EReal) (Wp : (⟨2, ![640, 512]⟩ : Shape).Idx → EReal)
    (b : Fin 8) (u : Fin 64) (j : Fin 512) : EReal :=
  ∑ d : Fin 640, pred (ix3 b u d) * Wp (ix2 d j)

/-- The hidden unit `j` at `(b, t, u)`: the two projections and the two biases summed, through `tanh`. -/
def hidden (enc : (⟨3, ![8, 256, 512]⟩ : Shape).Idx → EReal) (pred : (⟨3, ![8, 64, 640]⟩ : Shape).Idx → EReal)
    (We : (⟨2, ![512, 512]⟩ : Shape).Idx → EReal) (be : (⟨1, ![512]⟩ : Shape).Idx → EReal)
    (Wp : (⟨2, ![640, 512]⟩ : Shape).Idx → EReal) (bp : (⟨1, ![512]⟩ : Shape).Idx → EReal)
    (b : Fin 8) (t : Fin 256) (u : Fin 64) (j : Fin 512) : EReal :=
  Ideal.tanh (encDot enc We b t j + (predDot pred Wp b u j + (be (ix1 j) + bp (ix1 j))))

/-- The logit `v` at `(b, t, u)`. -/
def logit (enc : (⟨3, ![8, 256, 512]⟩ : Shape).Idx → EReal) (pred : (⟨3, ![8, 64, 640]⟩ : Shape).Idx → EReal)
    (We : (⟨2, ![512, 512]⟩ : Shape).Idx → EReal) (be : (⟨1, ![512]⟩ : Shape).Idx → EReal)
    (Wp : (⟨2, ![640, 512]⟩ : Shape).Idx → EReal) (bp : (⟨1, ![512]⟩ : Shape).Idx → EReal)
    (Wj : (⟨2, ![512, 1024]⟩ : Shape).Idx → EReal) (bj : (⟨1, ![1024]⟩ : Shape).Idx → EReal)
    (b : Fin 8) (t : Fin 256) (u : Fin 64) (v : Fin 1024) : EReal :=
  (∑ j : Fin 512, hidden enc pred We be Wp bp b t u j * Wj (ix2 j v)) + bj (ix1 v)

/-- The whole logits array. -/
def logits (enc : (⟨3, ![8, 256, 512]⟩ : Shape).Idx → EReal) (pred : (⟨3, ![8, 64, 640]⟩ : Shape).Idx → EReal)
    (We : (⟨2, ![512, 512]⟩ : Shape).Idx → EReal) (be : (⟨1, ![512]⟩ : Shape).Idx → EReal)
    (Wp : (⟨2, ![640, 512]⟩ : Shape).Idx → EReal) (bp : (⟨1, ![512]⟩ : Shape).Idx → EReal)
    (Wj : (⟨2, ![512, 1024]⟩ : Shape).Idx → EReal) (bj : (⟨1, ![1024]⟩ : Shape).Idx → EReal) :
    (⟨4, ![8, 256, 64, 1024]⟩ : Shape).Idx → EReal :=
  fun i => logit enc pred We be Wp bp Wj bj (i 0) (i 1) (i 2) (i 3)

/-- The same logit over the SEVEN arrays a fused launch is handed: the two hidden biases already summed into one
    array `b4`. -/
def logit7 (a0 : (⟨3, ![8, 256, 512]⟩ : Shape).Idx → EReal) (a1 : (⟨3, ![8, 64, 640]⟩ : Shape).Idx → EReal)
    (w2 : (⟨2, ![512, 512]⟩ : Shape).Idx → EReal) (w3 : (⟨2, ![640, 512]⟩ : Shape).Idx → EReal)
    (b4 : (⟨1, ![512]⟩ : Shape).Idx → EReal) (w5 : (⟨2, ![512, 1024]⟩ : Shape).Idx → EReal)
    (b6 : (⟨1, ![1024]⟩ : Shape).Idx → EReal) (b : Fin 8) (t : Fin 256) (u : Fin 64) (v : Fin 1024) : EReal :=
  (∑ j : Fin 512, Ideal.tanh ((∑ d : Fin 512, a0 (ix3 b t d) * w2 (ix2 d j))
      + ((∑ d : Fin 640, a1 (ix3 b u d) * w3 (ix2 d j)) + b4 (ix1 j))) * w5 (ix2 j v))
    + b6 (ix1 v)

/-- The whole array over the seven. -/
def logits7 (a0 : (⟨3, ![8, 256, 512]⟩ : Shape).Idx → EReal) (a1 : (⟨3, ![8, 64, 640]⟩ : Shape).Idx → EReal)
    (w2 : (⟨2, ![512, 512]⟩ : Shape).Idx → EReal) (w3 : (⟨2, ![640, 512]⟩ : Shape).Idx → EReal)
    (b4 : (⟨1, ![512]⟩ : Shape).Idx → EReal) (w5 : (⟨2, ![512, 1024]⟩ : Shape).Idx → EReal)
    (b6 : (⟨1, ![1024]⟩ : Shape).Idx → EReal) : (⟨4, ![8, 256, 64, 1024]⟩ : Shape).Idx → EReal :=
  fun i => logit7 a0 a1 w2 w3 b4 w5 b6 (i 0) (i 1) (i 2) (i 3)

/-- With the summed bias array `b_enc + b_pred`, the seven-array form is the joint network's. -/
theorem logits7_sum (enc : (⟨3, ![8, 256, 512]⟩ : Shape).Idx → EReal) (pred : (⟨3, ![8, 64, 640]⟩ : Shape).Idx → EReal)
    (We : (⟨2, ![512, 512]⟩ : Shape).Idx → EReal) (be : (⟨1, ![512]⟩ : Shape).Idx → EReal)
    (Wp : (⟨2, ![640, 512]⟩ : Shape).Idx → EReal) (bp : (⟨1, ![512]⟩ : Shape).Idx → EReal)
    (Wj : (⟨2, ![512, 1024]⟩ : Shape).Idx → EReal) (bj : (⟨1, ![1024]⟩ : Shape).Idx → EReal) :
    logits7 enc pred We Wp (fun k => be k + bp k) Wj bj = logits enc pred We be Wp bp Wj bj := rfl

/-- Each projection with its own bias, then added, is the encoder projection plus the prediction projection with
    both biases: `(A + a) + (P + p) = A + (P + (a + p))`, on every extended real. -/
theorem regroup (A a P p : EReal) : (A + a) + (P + p) = A + (P + (a + p)) := by
  rw [add_add_add_comm, add_assoc]

end Cert.Joint

end
-- ==== Proof.RefJoint.lean ====
/-
  The reference's result, read one host operation at a time, IS the joint-network function of the argument arrays.

  The reference adds each bias to its own projection and then adds the two; the specification groups both biases on
  the prediction side: the one place the two differ, closed by `regroup` under `tanh`. Everything else is reading
  broadcasts and the three contractions at an index.
-/
import proofs.«430496_j6545530159178_3_alg».proof.Proof.Gen.ReferenceIdeal.Read
import proofs.«430496_j6545530159178_3_alg».proof.Proof.JointSpec

noncomputable section

namespace Cert.Joint.Ref

open Cert.ReferenceIdeal Cert.ReferenceIdeal.Read Idealize.ShloMosaic Idealize.ShloMosaic.ValueIdx Cert.Joint

variable (x0 : S8x256x512.Idx → EReal) (x1 : S8x64x640.Idx → EReal) (x2 : S512x512.Idx → EReal) (x3 : S512.Idx → EReal)
  (x4 : S640x512.Idx → EReal) (x5 : S512.Idx → EReal) (x6 : S512x1024.Idx → EReal) (x7 : S1024.Idx → EReal)

/-! ### Where each broadcast chain and each contraction reads its operands, at `(b, t, u, j)` -/

theorem enc_l (b : Fin 8) (t : Fin 256) (u : Fin 64) (j : Fin 512) (d : Fin 512) :
    lidx_main_v0 (idx_main_v8 (idx_main_v10 (ix4 b t u j))) d = ix3 b t d :=
  funext fun a => Fin.ext (by match a with | ⟨0, _⟩ => rfl | ⟨1, _⟩ => rfl | ⟨2, _⟩ => rfl)

theorem enc_r (b : Fin 8) (t : Fin 256) (u : Fin 64) (j : Fin 512) (d : Fin 512) :
    ridx_main_v0 (idx_main_v8 (idx_main_v10 (ix4 b t u j))) d = ix2 d j :=
  funext fun a => Fin.ext (by match a with | ⟨0, _⟩ => rfl | ⟨1, _⟩ => rfl)

theorem enc_b (b : Fin 8) (t : Fin 256) (u : Fin 64) (j : Fin 512) :
    idx_main_v1 (idx_main_v2 (idx_main_v8 (idx_main_v10 (ix4 b t u j)))) = ix1 j :=
  funext fun a => Fin.ext (by match a with | ⟨0, _⟩ => rfl)

theorem pred_l (b : Fin 8) (t : Fin 256) (u : Fin 64) (j : Fin 512) (d : Fin 640) :
    lidx_main_v4 (idx_main_v9 (idx_main_v11 (ix4 b t u j))) d = ix3 b u d :=
  funext fun a => Fin.ext (by match a with | ⟨0, _⟩ => rfl | ⟨1, _⟩ => rfl | ⟨2, _⟩ => rfl)

theorem pred_r (b : Fin 8) (t : Fin 256) (u : Fin 64) (j : Fin 512) (d : Fin 640) :
    ridx_main_v4 (idx_main_v9 (idx_main_v11 (ix4 b t u j))) d = ix2 d j :=
  funext fun a => Fin.ext (by match a with | ⟨0, _⟩ => rfl | ⟨1, _⟩ => rfl)

theorem pred_b (b : Fin 8) (t : Fin 256) (u : Fin 64) (j : Fin 512) :
    idx_main_v5 (idx_main_v6 (idx_main_v9 (idx_main_v11 (ix4 b t u j)))) = ix1 j :=
  funext fun a => Fin.ext (by match a with | ⟨0, _⟩ => rfl)

/-- The reference's hidden unit: `tanh ((A + b_enc) + (P + b_pred))`, which is the specification's by `regroup`. -/
theorem hidden_eq (b : Fin 8) (t : Fin 256) (u : Fin 64) (j : Fin 512) :
    val_main_v13 (F := Ideal) x0 x1 x2 x3 x4 x5 (ix4 b t u j) = hidden x0 x1 x2 x3 x4 x5 b t u j := by
  rw [val_main_v13_apply, val_main_v12_apply, val_main_v10_apply, val_main_v8_apply, val_main_v3_apply,
    val_main_v0_apply, val_main_v2_apply, val_main_v1_apply, val_main_v11_apply, val_main_v9_apply,
    val_main_v7_apply, val_main_v4_apply, val_main_v6_apply, val_main_v5_apply]
  simp only [enc_l, enc_r, enc_b, pred_l, pred_r, pred_b]
  exact congrArg Ideal.tanh (regroup _ _ _ _)

/-! ### The output contraction and its bias, at `(b, t, u, v)` -/

theorem out_l (b : Fin 8) (t : Fin 256) (u : Fin 64) (v : Fin 1024) (k : Fin 512) :
    lidx_main_v14 (ix4 b t u v) k = ix4 b t u k :=
  funext fun a => Fin.ext (by match a with | ⟨0, _⟩ => rfl | ⟨1, _⟩ => rfl | ⟨2, _⟩ => rfl | ⟨3, _⟩ => rfl)

theorem out_r (b : Fin 8) (t : Fin 256) (u : Fin 64) (v : Fin 1024) (k : Fin 512) :
    ridx_main_v14 (ix4 b t u v) k = ix2 k v :=
  funext fun a => Fin.ext (by match a with | ⟨0, _⟩ => rfl | ⟨1, _⟩ => rfl)

theorem out_b (b : Fin 8) (t : Fin 256) (u : Fin 64) (v : Fin 1024) :
    idx_main_v15 (idx_main_v16 (ix4 b t u v)) = ix1 v :=
  funext fun a => Fin.ext (by match a with | ⟨0, _⟩ => rfl)

/-- The reference's result array is the joint-network function of its eight arguments. -/
theorem result_eq : val_main_v17 (F := Ideal) x0 x1 x2 x3 x4 x5 x6 x7 = logits x0 x1 x2 x3 x4 x5 x6 x7 := by
  funext i
  obtain ⟨b, t, u, v, rfl⟩ : ∃ (b : Fin 8) (t : Fin 256) (u : Fin 64) (v : Fin 1024), i = ix4 b t u v :=
    ⟨i 0, i 1, i 2, i 3, eq_ix4 i⟩
  rw [val_main_v17_apply, val_main_v14_apply, val_main_v16_apply, val_main_v15_apply]
  simp only [out_l, out_r, out_b, hidden_eq]
  rfl

end Cert.Joint.Ref

end
-- ==== Proof.LibLayout3.lean ====
/-
  Layout operations of a batched-matmul body, read at an index by coordinates, and a plain matrix product into a
  zero accumulator as a sum.

  A body that multiplies a rank-3 value `[a, b, c]` by a matrix does so on its row-major flattening `[a·b, c]`: the
  two shape casts between `[n, c]` (with `n = a·b`) and `[a, b, c]` read row `p·b + q` at `(p, q)`. A rank-3
  broadcast along a unit axis reads the operand with that coordinate `0`; a matrix or a vector cast to a rank-3
  array with unit axes reads the operand at the remaining coordinates. Every statement is over literal-shaped
  index tuples (`ix1` … `ix3`), so that coordinate arithmetic is linear.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

namespace Cert.Layout3

open Idealize.ShloMosaic Idealize.ShloMosaic.ValueIdx

variable {α : Type}

/-- A matrix `[n, c]` cast to `[a, b, c]` reads, at `(p, q, v)`, row `r = p·b + q` of the matrix at column `v`. -/
theorem shapeCast_nc_abc_apply {n a b c : ℕ} (x : (⟨2, ![n, c]⟩ : Shape).Idx → α)
    (h : (⟨2, ![n, c]⟩ : Shape).ShapeCasts ⟨3, ![a, b, c]⟩) (p : Fin a) (q : Fin b) (v : Fin c) (r : Fin n)
    (hr : r.val = p.val * b + q.val) :
    shapeCast ⟨3, ![a, b, c]⟩ x h (ix3 p q v) = x (ix2 r v) :=
  shapeCast_apply x h _ _ (by
    rw [Shape.rowMajor_val_two, Shape.rowMajor_val_three]
    show r.val * c + v.val = (p.val * b + q.val) * c + v.val
    rw [hr])

/-- An array `[a, b, c]` cast to the matrix `[n, c]` reads, at row `r = p·b + q` and column `v`, the array at
    `(p, q, v)`. -/
theorem shapeCast_abc_nc_apply {n a b c : ℕ} (x : (⟨3, ![a, b, c]⟩ : Shape).Idx → α)
    (h : (⟨3, ![a, b, c]⟩ : Shape).ShapeCasts ⟨2, ![n, c]⟩) (p : Fin a) (q : Fin b) (v : Fin c) (r : Fin n)
    (hr : r.val = p.val * b + q.val) :
    shapeCast ⟨2, ![n, c]⟩ x h (ix2 r v) = x (ix3 p q v) :=
  shapeCast_apply x h _ _ (by
    rw [Shape.rowMajor_val_two, Shape.rowMajor_val_three]
    show (p.val * b + q.val) * c + v.val = r.val * c + v.val
    rw [hr])

/-- A matrix `[a, c]` cast to `[a, 1, c]` reads, at `(p, u, v)`, the matrix at `(p, v)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (v : Fin c) :
    shapeCast ⟨3, ![a, 1, c]⟩ x h (ix3 p u v) = x (ix2 p v) :=
  shapeCast_apply x h _ _ (by
    have hu : u.val = 0 := by omega
    rw [Shape.rowMajor_val_two, Shape.rowMajor_val_three]
    show p.val * c + v.val = (p.val * 1 + u.val) * c + v.val
    rw [hu, Nat.mul_one, Nat.add_zero])

/-- A vector `[c]` cast to `[1, 1, c]` reads, at `(u, u', v)`, the vector at `v`. -/
theorem shapeCast_c_11c_apply {c : ℕ} (x : (⟨1, ![c]⟩ : Shape).Idx → α)
    (h : (⟨1, ![c]⟩ : Shape).ShapeCasts ⟨3, ![1, 1, c]⟩) (u u' : Fin 1) (v : Fin c) :
    shapeCast ⟨3, ![1, 1, c]⟩ x h (ix3 u u' v) = x (ix1 v) :=
  shapeCast_apply x h _ _ (by
    have hu : u.val = 0 := by omega
    have hu' : u'.val = 0 := by omega
    rw [Shape.rowMajor_val_one, Shape.rowMajor_val_three]
    show v.val = (u.val * 1 + u'.val) * c + v.val
    rw [hu, hu']
    show v.val = (0 * 1 + 0) * c + v.val
    omega)

/-- `[a, 1, c]` broadcast to `[a, b, c]` reads, at `(p, q, v)`, the operand at `(p, 0, v)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (v : Fin c) :
    broadcastTo ⟨3, ![a, b, c]⟩ x h (ix3 p q v) = x (ix3 p (0 : Fin 1) v) := by
  refine broadcastTo_apply x h (ix3 p q v) (ix3 p (0 : Fin 1) v) fun ax => ?_
  match ax with
  | ⟨0, _⟩ =>
    show p.val = if a = 1 then 0 else p.val
    split
    · have := p.isLt; omega
    · rfl
  | ⟨1, _⟩ => rfl
  | ⟨2, _⟩ =>
    show v.val = if c = 1 then 0 else v.val
    split
    · have := v.isLt; omega
    · rfl

/-- `[1, b, c]` broadcast to `[a, b, c]` reads, at `(p, q, v)`, the operand at `(0, q, v)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (v : Fin c) :
    broadcastTo ⟨3, ![a, b, c]⟩ x h (ix3 p q v) = x (ix3 (0 : Fin 1) q v) := by
  refine broadcastTo_apply x h (ix3 p q v) (ix3 (0 : Fin 1) q v) fun ax => ?_
  match ax with
  | ⟨0, _⟩ => rfl
  | ⟨1, _⟩ =>
    show q.val = if b = 1 then 0 else q.val
    split
    · have := q.isLt; omega
    · rfl
  | ⟨2, _⟩ =>
    show v.val = if c = 1 then 0 else v.val
    split
    · have := v.isLt; omega
    · rfl

/-- `[1, 1, c]` broadcast to `[a, b, c]` reads, at `(p, q, v)`, the operand at `(0, 0, v)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (v : Fin c) :
    broadcastTo ⟨3, ![a, b, c]⟩ x h (ix3 p q v) = x (ix3 (0 : Fin 1) (0 : Fin 1) v) := by
  refine broadcastTo_apply x h (ix3 p q v) (ix3 (0 : Fin 1) (0 : Fin 1) v) fun ax => ?_
  match ax with
  | ⟨0, _⟩ => rfl
  | ⟨1, _⟩ => rfl
  | ⟨2, _⟩ =>
    show v.val = if c = 1 then 0 else v.val
    split
    · have := v.isLt; omega
    · rfl

/-- The plain product of an `m×k` by a `k×n` matrix accumulated into a zero splat, read at `(i, j)`, is the sum over
    the contracted coordinate of the products of the entries. At the ideal values. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ d : Fin k, A (ix2 i d) * B (ix2 d j) := by
  rw [matmul_zero_eq_dotGeneral]
  exact StackMember.dotGeneral_plain_apply prec A B i j

end Cert.Layout3

end
-- ==== Proof.KernelChunk.lean ====
/-
  The kernel body's arithmetic, read at an index over the extended reals.

  One grid step holds a tile of 32 encoder frames and all 64 prediction steps of one batch element. The body forms
    E(p, j) = Σ_d enc_tile[p, d]·W_enc[d, j]                         (32 × 512)
    Q(r, j) = Σ_d pred_tile[r, d]·W_pred[d, j] + bias[j]             (64 × 512; `bias` is b_enc + b_pred)
  and then, for each of four chunks of 16 prediction steps (rows o, …, o+15 of Q with o = 0, 16, 32, 48), the chunk
    C_o(p, q, v) = Σ_j tanh (E(p, j) + Q(o + q, j))·W_joint[j, v] + b_joint[v]     (32 × 16 × 1024),
  the product taken on the row-major flattening (p, q) ↦ 16·p + q. Changes of float format are the identity here.
-/
import proofs.«430496_j6545530159178_3_alg».proof.Proof.Gen.KernelIdeal.Skeleton
import proofs.«430496_j6545530159178_3_alg».proof.Proof.LibLayout3
import Idealize.ShloMosaic.PureOps.Ideal.Laws

noncomputable section

namespace Cert.Joint.Kernel

open Cert.KernelIdeal Cert.KernelIdeal.Gen Idealize.ShloMosaic Idealize.ShloMosaic.ValueIdx Cert.Layout3

/-- The encoder projection of the tile: entry `(p, j)` is row `p` of the tile against column `j` of the weights. -/
theorem encTile_apply (v0 : Vec Ideal S1x32x512 .f32) (v3 : Vec Ideal S512x512 .bf16) (p : Fin 32) (j : Fin 512) :
    k0_pay2 v0 v3 (ix2 p j) = ∑ d : Fin 512, v0 (ix3 (0 : Fin 1) p d) * v3 (ix2 d j) := by
  unfold k0_pay2
  show matmul (DotDims.plain 32 512 512) none _ _ (constant ⟨2, ![32, 512]⟩ .f32 0x00000000#32) (ix2 p j) = _
  rw [matmul_plain_zero_apply]
  simp only [shapeCast_self, truncf_apply, shapeCast_1ab_ab_apply]

/-- The prediction projection of the tile with the summed bias: entry `(r, j)`. -/
theorem predTile_apply (v6 : Vec Ideal S1x64x640 .f32) (v9 : Vec Ideal S640x512 .bf16) (v12 : Vec Ideal S512 .f32)
    (r : Fin 64) (j : Fin 512) :
    k0_pay3 v6 v9 v12 (ix2 r j) = (∑ d : Fin 640, v6 (ix3 (0 : Fin 1) r d) * v9 (ix2 d j)) + v12 (ix1 j) := by
  unfold k0_pay3
  show matmul (DotDims.plain 64 640 512) none _ _ (constant ⟨2, ![64, 512]⟩ .f32 0x00000000#32) (ix2 r j)
    + broadcastTo ⟨2, ![64, 512]⟩ _ _ (ix2 r j) = _
  rw [matmul_plain_zero_apply, broadcastTo_1b_ab_apply, shapeCast_a_1a_apply]
  simp only [shapeCast_self, truncf_apply, shapeCast_1ab_ab_apply]

/-- The output bias row, laid out `[1, 1, 1024]`, at column `v`. -/
theorem biasRow_apply (v19 : Vec Ideal S1024 .f32) (v : Fin 1024) :
    k0_pay5 v19 (ix3 (0 : Fin 1) (0 : Fin 1) v) = v19 (ix1 v) := by
  unfold k0_pay5
  exact shapeCast_c_11c_apply _ _ _ _ _

/-- The joint weights pass through unchanged. -/
theorem weights_eq (v17 : Vec Ideal S512x1024 .bf16) : k0_pay4 v17 = v17 := by
  unfold k0_pay4
  exact shapeCast_self _ _

/-- One chunk of 16 prediction steps, from row `o` of the prediction projection on: the four chunks of the body are
    this one term at `o = 0, 16, 32, 48`. -/
def chunk (o : Nat) (h : S64x512.Slices ![o, 0] S16x512) (v5 : FVec Ideal S32x512 .f32) (v16 : FVec Ideal S64x512 .f32)
    (v18 : FVec Ideal S512x1024 .bf16) (v20 : FVec Ideal S1x1x1024 .f32) : FVec Ideal S32x16x1024 .f32 :=
  addf (shapeCast S32x16x1024 (matmul dot_S512x512_S512x1024_S512x1024_1_0_0_1_n_n none
      (shapeCast S512x512 (truncf .bf16 (tanh (addf
        (broadcastTo S32x16x512 (shapeCast S32x1x512 v5 shapeCasts_S32x512_S32x1x512) broadcasts_S32x1x512_S32x16x512)
        (broadcastTo S32x16x512 (shapeCast S1x16x512 (extractStridedSlice S16x512 ![o, 0] v16 h) shapeCasts_S16x512_S1x16x512) broadcasts_S1x16x512_S32x16x512)))
        bitsLt_bf16_f32) shapeCasts_S32x16x512_S512x512)
      v18 (constant S512x1024 .f32 0x00000000#32)) shapeCasts_S512x1024_S32x16x1024)
    (broadcastTo S32x16x1024 v20 broadcasts_S1x1x1024_S32x16x1024)

/-- A chunk at `(p, q, v)`: the contraction over the hidden units of `tanh (E(p, ·) + Q(o + q, ·))` against column `v`
    of the joint weights, plus the output bias. Row `16·p + q` of the flattened product is `(p, q)`. -/
theorem chunk_apply (o : Nat) (h : S64x512.Slices ![o, 0] S16x512) (v5 : FVec Ideal S32x512 .f32) (v16 : FVec Ideal S64x512 .f32)
    (v18 : FVec Ideal S512x1024 .bf16) (v20 : FVec Ideal S1x1x1024 .f32) (p : Fin 32) (q : Fin 16) (v : Fin 1024)
    (r : Fin 64) (hr : r.val = o + q.val) :
    chunk o h v5 v16 v18 v20 (ix3 p q v)
      = (∑ j : Fin 512, Ideal.tanh (v5 (ix2 p j) + v16 (ix2 r j)) * v18 (ix2 j v)) + v20 (ix3 (0 : Fin 1) (0 : Fin 1) v) := by
  unfold chunk
  rw [addf_apply, broadcastTo_11c_abc_apply,
    shapeCast_nc_abc_apply _ _ p q v (⟨p.val * 16 + q.val, by omega⟩ : Fin 512) rfl]
  congr 1
  show matmul (DotDims.plain 512 512 1024) none _ _ (constant ⟨2, ![512, 1024]⟩ .f32 0x00000000#32) (ix2 _ v) = _
  rw [matmul_plain_zero_apply]
  refine Finset.sum_congr rfl fun j _ => ?_
  congr 1
  rw [shapeCast_abc_nc_apply _ _ p q j (⟨p.val * 16 + q.val, by omega⟩ : Fin 512) rfl, truncf_apply]
  show Ideal.tanh (broadcastTo ⟨3, ![32, 16, 512]⟩ _ _ (ix3 p q j) + broadcastTo ⟨3, ![32, 16, 512]⟩ _ _ (ix3 p q j)) = _
  rw [broadcastTo_a1c_abc_apply, broadcastTo_1bc_abc_apply, shapeCast_ac_a1c_apply, shapeCast_ab_1ab_apply,
    slice2_axis0_apply o v16 h q j r hr]

/-! ### The four stores' payloads are the four chunks, each with a leading unit axis -/

theorem pay6_eq (v0 : Vec Ideal S1x32x512 .f32) (v3 : Vec Ideal S512x512 .bf16) (v6 : Vec Ideal S1x64x640 .f32)
    (v9 : Vec Ideal S640x512 .bf16) (v12 : Vec Ideal S512 .f32) (v17 : Vec Ideal S512x1024 .bf16) (v19 : Vec Ideal S1024 .f32) :
    k0_pay6 v0 v3 v6 v9 v12 v17 v19
      = shapeCast S1x32x16x1024 (chunk 0 slices_S64x512_o0_0_S16x512 (k0_pay2 v0 v3) (k0_pay3 v6 v9 v12) (k0_pay4 v17) (k0_pay5 v19))
          shapeCasts_S32x16x1024_S1x32x16x1024 := rfl

theorem pay7_eq (v5 : FVec Ideal S32x512 .f32) (v16 : FVec Ideal S64x512 .f32) (v18 : FVec Ideal S512x1024 .bf16)
    (v20 : FVec Ideal S1x1x1024 .f32) :
    k0_pay7 v5 v16 v18 v20
      = shapeCast S1x32x16x1024 (chunk 16 slices_S64x512_o16_0_S16x512 v5 v16 v18 v20) shapeCasts_S32x16x1024_S1x32x16x1024 := rfl

theorem pay8_eq (v5 : FVec Ideal S32x512 .f32) (v16 : FVec Ideal S64x512 .f32) (v18 : FVec Ideal S512x1024 .bf16)
    (v20 : FVec Ideal S1x1x1024 .f32) :
    k0_pay8 v5 v16 v18 v20
      = shapeCast S1x32x16x1024 (chunk 32 slices_S64x512_o32_0_S16x512 v5 v16 v18 v20) shapeCasts_S32x16x1024_S1x32x16x1024 := rfl

theorem pay9_eq (v5 : FVec Ideal S32x512 .f32) (v16 : FVec Ideal S64x512 .f32) (v18 : FVec Ideal S512x1024 .bf16)
    (v20 : FVec Ideal S1x1x1024 .f32) :
    k0_pay1 (k0_pay9 v5 v16 v18 v20)
      = shapeCast S1x32x16x1024 (chunk 48 slices_S64x512_o48_0_S16x512 v5 v16 v18 v20) shapeCasts_S32x16x1024_S1x32x16x1024 := rfl

/-- Entry `(p, r, v)` of what one grid step computes from its seven loaded blocks — the encoder tile `x0`, the
    prediction tile `x1`, the three weight matrices `x2`, `x3`, `x5`, the summed hidden bias `x4` and the output bias `x6`:
    `Σ_j tanh (Σ_d x0[p, d]·x2[d, j] + (Σ_d x1[r, d]·x3[d, j] + x4[j]))·x5[j, v] + x6[v]`. -/
def blockAt (x0 : Vec Ideal S1x32x512 .f32) (x1 : Vec Ideal S1x64x640 .f32) (x2 : Vec Ideal S512x512 .bf16)
    (x3 : Vec Ideal S640x512 .bf16) (x4 : Vec Ideal S512 .f32) (x5 : Vec Ideal S512x1024 .bf16) (x6 : Vec Ideal S1024 .f32)
    (p : Fin 32) (r : Fin 64) (v : Fin 1024) : EReal :=
  (∑ j : Fin 512, Ideal.tanh ((∑ d : Fin 512, x0 (ix3 (0 : Fin 1) p d) * x2 (ix2 d j))
      + ((∑ d : Fin 640, x1 (ix3 (0 : Fin 1) r d) * x3 (ix2 d j)) + x4 (ix1 j))) * x5 (ix2 j v))
    + x6 (ix1 v)

/-- A stored chunk at `(z, p, q, v)` from the body's seven loads is `blockAt` at the prediction row `r = o + q`. -/
theorem stored_apply (o : Nat) (h : S64x512.Slices ![o, 0] S16x512) (v0 : Vec Ideal S1x32x512 .f32) (v3 : Vec Ideal S512x512 .bf16)
    (v6 : Vec Ideal S1x64x640 .f32) (v9 : Vec Ideal S640x512 .bf16) (v12 : Vec Ideal S512 .f32) (v17 : Vec Ideal S512x1024 .bf16)
    (v19 : Vec Ideal S1024 .f32) (z : Fin 1) (p : Fin 32) (q : Fin 16) (v : Fin 1024) (r : Fin 64) (hr : r.val = o + q.val) :
    shapeCast S1x32x16x1024 (chunk o h (k0_pay2 v0 v3) (k0_pay3 v6 v9 v12) (k0_pay4 v17) (k0_pay5 v19))
        shapeCasts_S32x16x1024_S1x32x16x1024 (ix4 z p q v)
      = blockAt v0 v6 v3 v9 v12 v17 v19 p r v := by
  rw [shapeCast_abc_1abc_apply, chunk_apply o h _ _ _ _ p q v r hr, biasRow_apply, weights_eq]
  simp only [encTile_apply, predTile_apply]
  rfl

end Cert.Joint.Kernel

end
-- ==== Proof.KernelArray.lean ====
/-
  From one grid step's block to the whole logits array.

  The grid is (batch b, time tile τ) with 8 × 8 points. Point (b, τ) reads rows 32τ … 32τ+31 of enc[b], all of
  pred[b], the three weight matrices, the summed hidden bias and the output bias whole, and writes the block
  [b, 32τ … 32τ+31, 0 … 63, 0 … 1023] of the output. Inside the block the four chunk stores tile the 64 prediction
  steps (rows 0–15, 16–31, 32–47, 48–63), so the block is ONE function `blockFn` of the loaded blocks; read through the
  block's position it is the restriction of ONE whole-array function (`arrFn`, the seven-array form of the joint
  network) — and the 64 blocks cover the array: (b, t) lies in the block of point (b, t / 32). The arrays the host
  prepared before the launch are the weights unchanged (a change of float format is the identity here) and
  b_enc + b_pred, which makes `arrFn` the joint network of the eight arguments.
-/
import proofs.«430496_j6545530159178_3_alg».proof.Proof.Gen.KernelIdeal.Value
import proofs.«430496_j6545530159178_3_alg».proof.Proof.KernelChunk
import proofs.«430496_j6545530159178_3_alg».proof.Proof.JointSpec
import Idealize.ShloMosaic.Lib.StableHlo.Run

set_option maxRecDepth 16384

noncomputable section

namespace Cert.Joint.Kernel

open Cert.KernelIdeal Cert.KernelIdeal.Gen Idealize.ShloMosaic Idealize.ShloMosaic.TcCoe Idealize.ShloMosaic.ValueIdx Cert.Layout3 Idealize.SL.Sem
open Idealize.ShloMosaic.Pipeline (Dat)

/-- The block one grid step leaves, as a function of its seven loaded blocks: `blockAt` at the block index's encoder
    row, prediction row and vocabulary column. -/
def blockFn (x0 : Vec Ideal S1x32x512 .f32) (x1 : Vec Ideal S1x64x640 .f32) (x2 : Vec Ideal S512x512 .bf16)
    (x3 : Vec Ideal S640x512 .bf16) (x4 : Vec Ideal S512 .f32) (x5 : Vec Ideal S512x1024 .bf16) (x6 : Vec Ideal S1024 .f32) :
    Vec Ideal S1x32x64x1024 .f32 :=
  fun y => blockAt x0 x1 x2 x3 x4 x5 x6 (y 1) (y 2) (y 3)

/-! ### Zero offsets, however spelt -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The chunk stored at rows `o … o+15` of the prediction axis is `blockFn` there: local row `q` of the chunk is row
    `o + q` of the block. -/
theorem piece_apply (o : Nat) (h : S64x512.Slices ![o, 0] S16x512)
    (inb : ∀ a, (![0, 0, o, 0] : Fin 4 → Nat) a + S1x32x16x1024.size a ≤ S1x32x64x1024.size a)
    (x0 : Vec Ideal S1x32x512 .f32) (x1 : Vec Ideal S1x64x640 .f32) (x2 : Vec Ideal S512x512 .bf16)
    (x3 : Vec Ideal S640x512 .bf16) (x4 : Vec Ideal S512 .f32) (x5 : Vec Ideal S512x1024 .bf16) (x6 : Vec Ideal S1024 .f32)
    (x : S1x32x16x1024.Idx) :
    shapeCast S1x32x16x1024 (chunk o h (k0_pay2 x0 x2) (k0_pay3 x1 x3 x4) (k0_pay4 x5) (k0_pay5 x6))
        shapeCasts_S32x16x1024_S1x32x16x1024 x
      = blockFn x0 x1 x2 x3 x4 x5 x6 ((Rect.unit (s := S1x32x64x1024) ![0, 0, o, 0] S1x32x16x1024.size inb).emb x) := by
  obtain ⟨z, p, q, v, rfl⟩ : ∃ (z : Fin 1) (p : Fin 32) (q : Fin 16) (v : Fin 1024), x = ix4 z p q v :=
    ⟨x 0, x 1, x 2, x 3, eq_ix4 x⟩
  have ho : o + 16 ≤ 64 := inb 2
  rw [stored_apply o h x0 x2 x1 x3 x4 x5 x6 z p q v ⟨o + q.val, by omega⟩ rfl]
  unfold blockFn
  have e1 : (Rect.unit (s := S1x32x64x1024) ![0, 0, o, 0] S1x32x16x1024.size inb).emb (ix4 z p q v) 1 = p :=
    Fin.ext (by show 0 + 1 * p.val = p.val; omega)
  have e2 : (Rect.unit (s := S1x32x64x1024) ![0, 0, o, 0] S1x32x16x1024.size inb).emb (ix4 z p q v) 2 = (⟨o + q.val, by omega⟩ : Fin 64) :=
    Fin.ext (by show o + 1 * q.val = o + q.val; omega)
  have e3 : (Rect.unit (s := S1x32x64x1024) ![0, 0, o, 0] S1x32x16x1024.size inb).emb (ix4 z p q v) 3 = v :=
    Fin.ext (by show 0 + 1 * v.val = v.val; omega)
  rw [e1, e2, e3]

/-- What the body leaves in the output block: its four stores tile the block, and each is `blockFn` on its rows. -/
theorem out_eq (x0 : Vec Ideal S1x32x512 .f32) (x1 : Vec Ideal S1x64x640 .f32) (x2 : Vec Ideal S512x512 .bf16)
    (x3 : Vec Ideal S640x512 .bf16) (x4 : Vec Ideal S512 .f32) (x5 : Vec Ideal S512x1024 .bf16) (x6 : Vec Ideal S1024 .f32) :
    out0_7 x0 x1 x2 x3 x4 x5 x6 = blockFn x0 x1 x2 x3 x4 x5 x6 := by
  funext y
  unfold out0_7
  simp only [View.ld_unit_zero (S := S1x32x512) hz3, View.ld_unit_zero (S := S512x512) hz2, View.ld_unit_zero (S := S1x64x640) hz3,
    View.ld_unit_zero (S := S640x512) hz2, View.ld_unit_zero (S := S512) hz1, View.ld_unit_zero (S := S512x1024) hz2,
    View.ld_unit_zero (S := S1024) hz1]
  refine View.canon_apply_of_pieces (blockFn x0 x1 x2 x3 x4 x5 x6) _ ?_ y (cover0_7 _ _ _ _ y)
  intro pc hpc x
  simp only [List.mem_cons, List.not_mem_nil, or_false] at hpc
  rcases hpc with rfl | rfl | rfl | rfl
  · exact (congrFun (pay9_eq _ _ _ _) x).trans (piece_apply 48 slices_S64x512_o48_0_S16x512 inb_S1x32x64x1024_S1x32x16x1024_0_0_48_0 x0 x1 x2 x3 x4 x5 x6 x)
  · exact (congrFun (pay8_eq _ _ _ _) x).trans (piece_apply 32 slices_S64x512_o32_0_S16x512 inb_S1x32x64x1024_S1x32x16x1024_0_0_32_0 x0 x1 x2 x3 x4 x5 x6 x)
  · exact (congrFun (pay7_eq _ _ _ _) x).trans (piece_apply 16 slices_S64x512_o16_0_S16x512 inb_S1x32x64x1024_S1x32x16x1024_0_0_16_0 x0 x1 x2 x3 x4 x5 x6 x)
  · exact (congrFun (pay6_eq _ _ _ _ _ _ _) x).trans (piece_apply 0 slices_S64x512_o0_0_S16x512 inb_S1x32x64x1024_S1x32x16x1024_0_0_0_0 x0 x1 x2 x3 x4 x5 x6 x)

variable (m : (ℓ : Loc nD τ sig) → Buf (Elt Ideal) ℓ) (ρ : Dev nD → PrngReg)

/-- The eight argument arrays as launched, as functions into the extended reals. -/
abbrev encA (c : Dev nD) : S8x256x512.Idx → EReal := m ((c : Thread nD τ).loc main_arg0)
abbrev predA (c : Dev nD) : S8x64x640.Idx → EReal := m ((c : Thread nD τ).loc main_arg1)
abbrev wEnc (c : Dev nD) : S512x512.Idx → EReal := m ((c : Thread nD τ).loc main_arg2)
abbrev bEnc (c : Dev nD) : S512.Idx → EReal := m ((c : Thread nD τ).loc main_arg3)
abbrev wPred (c : Dev nD) : S640x512.Idx → EReal := m ((c : Thread nD τ).loc main_arg4)
abbrev bPred (c : Dev nD) : S512.Idx → EReal := m ((c : Thread nD τ).loc main_arg5)
abbrev wJoint (c : Dev nD) : S512x1024.Idx → EReal := m ((c : Thread nD τ).loc main_arg6)
abbrev bJoint (c : Dev nD) : S1024.Idx → EReal := m ((c : Thread nD τ).loc main_arg7)

/-! ### The arrays the host prepares before the launch -/

/-- `W_enc` in the narrower float format: the same numbers. -/
theorem V_v0 (c : Dev nD) : (V m c main_v0 : S512x512.Idx → EReal) = wEnc m c := by
  dsimp only [Gen.V, Gen.hostOps0]; after_results; rfl
/-- `W_pred` likewise. -/
theorem V_v1 (c : Dev nD) : (V m c main_v1 : S640x512.Idx → EReal) = wPred m c := by
  dsimp only [Gen.V, Gen.hostOps0]; after_results; rfl
/-- `W_joint` likewise. -/
theorem V_v2 (c : Dev nD) : (V m c main_v2 : S512x1024.Idx → EReal) = wJoint m c := by
  dsimp only [Gen.V, Gen.hostOps0]; after_results; rfl
/-- The hidden bias handed to the launch is `b_enc + b_pred`, entry by entry. -/
theorem V_v3 (c : Dev nD) : (V m c main_v3 : S512.Idx → EReal) = fun k => bEnc m c k + bPred m c k := by
  dsimp only [Gen.V, Gen.hostOps0]; after_results; rfl

/-! ### The index maps over the 64 grid points -/

/-- The encoder window moves with the output on the batch and time-tile axes, the prediction window on the batch axis
    only; every other window stays at block 0; the output's block index is (b, τ, 0, 0) with b, τ < 8. -/
theorem idx_facts : ∀ t : Fin cfg0.N,
    win0_0.index t (0 : Fin 3) = win0_7.index t (0 : Fin 4) ∧ win0_0.index t (1 : Fin 3) = win0_7.index t (1 : Fin 4) ∧ win0_0.index t (2 : Fin 3) = 0
    ∧ win0_1.index t (0 : Fin 3) = win0_7.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (2 : Fin 4) = 0 ∧ win0_7.index t (3 : Fin 4) = 0
    ∧ win0_7.index t (0 : Fin 4) < 8 ∧ win0_7.index t (1 : Fin 4) < 8 :=
  (by decide +kernel : ∀ t : Fin grid0.N, _)

/-- Every (b, τ) is some point's output block. -/
theorem idx_onto : ∀ (b : Fin 8) (ti : Fin 8), ∃ t : Fin cfg0.N, win0_7.index t = ![b.val, ti.val, 0, 0] :=
  (by decide +kernel : ∀ (b : Fin 8) (ti : Fin 8), ∃ t : Fin grid0.N, win0_7.index t = ![b.val, ti.val, 0, 0])

/-! ### Each input block read where the output block's position says -/

/-- Row `p` of the encoder tile at point `t` is row `32τ + p` of `enc[b]`. -/
theorem read0 (c : Dev nD) (t : Fin cfg0.N) (z : Fin 1) (p : Fin 32) (B : Fin 8) (T : Fin 256)
    (hB : B.val = win0_7.index t (0 : Fin 4)) (hT : T.val = win0_7.index t (1 : Fin 4) * 32 + p.val) (d : Fin 512) :
    iblk m c 0 t (ix3 z p d) = V m c main_arg0 (ix3 B T d) := by
  obtain ⟨e0, e1, e2, -⟩ := idx_facts t
  show V m c main_arg0 (((cfg0.win 0).blk t).view.emb (ix3 z p d)) = V m c main_arg0 (ix3 B T d)
  refine congrArg (V m c main_arg0) (funext fun a => Fin.ext ?_)
  have hz := z.isLt
  match a with
  | ⟨0, _⟩ => show win0_0.index t (0 : Fin 3) * 1 + 1 * z.val = B.val; omega
  | ⟨1, _⟩ => show win0_0.index t (1 : Fin 3) * 32 + 1 * p.val = T.val; omega
  | ⟨2, _⟩ => show win0_0.index t (2 : Fin 3) * 512 + 1 * d.val = d.val; omega

/-- Row `r` of the prediction tile is row `r` of `pred[b]`. -/
theorem read1 (c : Dev nD) (t : Fin cfg0.N) (z : Fin 1) (r : Fin 64) (B : Fin 8)
    (hB : B.val = win0_7.index t (0 : Fin 4)) (d : Fin 640) :
    iblk m c 1 t (ix3 z r d) = V m c main_arg1 (ix3 B r d) := by
  obtain ⟨-, -, -, e0, e1, e2, -⟩ := idx_facts t
  show V m c main_arg1 (((cfg0.win 1).blk t).view.emb (ix3 z r d)) = V m c main_arg1 (ix3 B r d)
  refine congrArg (V m c main_arg1) (funext fun a => Fin.ext ?_)
  have hz := z.isLt
  match a with
  | ⟨0, _⟩ => show win0_1.index t (0 : Fin 3) * 1 + 1 * z.val = B.val; omega
  | ⟨1, _⟩ => show win0_1.index t (1 : Fin 3) * 64 + 1 * r.val = r.val; omega
  | ⟨2, _⟩ => show win0_1.index t (2 : Fin 3) * 640 + 1 * d.val = d.val; omega

/-- The remaining five windows hold their whole arrays at every point. -/
theorem read2 (c : Dev nD) (t : Fin cfg0.N) (y : S512x512.Idx) : iblk m c 2 t y = V m c main_v0 y := by
  obtain ⟨-, -, -, -, -, -, e0, e1, -⟩ := idx_facts t
  show V m c main_v0 (((cfg0.win 2).blk t).view.emb y) = V m c main_v0 y
  refine congrArg (V m c main_v0) (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem read3 (c : Dev nD) (t : Fin cfg0.N) (y : S640x512.Idx) : iblk m c 3 t y = V m c main_v1 y := by
  obtain ⟨-, -, -, -, -, -, -, -, e0, e1, -⟩ := idx_facts t
  show V m c main_v1 (((cfg0.win 3).blk t).view.emb y) = V m c main_v1 y
  refine congrArg (V m c main_v1) (funext fun a => Fin.ext ?_)
  match a with
  | ⟨0, _⟩ => show win0_3.index t (0 : Fin 2) * 640 + 1 * (y 0).val = (y 0).val; omega
  | ⟨1, _⟩ => show win0_3.index t (1 : Fin 2) * 512 + 1 * (y 1).val = (y 1).val; omega

theorem read4 (c : Dev nD) (t : Fin cfg0.N) (y : S512.Idx) : iblk m c 4 t y = V m c main_v3 y := by
  obtain ⟨-, -, -, -, -, -, -, -, -, -, e0, -⟩ := idx_facts t
  show V m c main_v3 (((cfg0.win 4).blk t).view.emb y) = V m c main_v3 y
  refine congrArg (V m c main_v3) (funext fun a => Fin.ext ?_)
  match a with
  | ⟨0, _⟩ => show win0_4.index t (0 : Fin 1) * 512 + 1 * (y 0).val = (y 0).val; omega

theorem read5 (c : Dev nD) (t : Fin cfg0.N) (y : S512x1024.Idx) : iblk m c 5 t y = V m c main_v2 y := by
  obtain ⟨-, -, -, -, -, -, -, -, -, -, -, e0, e1, -⟩ := idx_facts t
  show V m c main_v2 (((cfg0.win 5).blk t).view.emb y) = V m c main_v2 y
  refine congrArg (V m c main_v2) (funext fun a => Fin.ext ?_)
  match a with
  | ⟨0, _⟩ => show win0_5.index t (0 : Fin 2) * 512 + 1 * (y 0).val = (y 0).val; omega
  | ⟨1, _⟩ => show win0_5.index t (1 : Fin 2) * 1024 + 1 * (y 1).val = (y 1).val; omega

theorem read6 (c : Dev nD) (t : Fin cfg0.N) (y : S1024.Idx) : iblk m c 6 t y = V m c main_arg7 y := by
  obtain ⟨-, -, -, -, -, -, -, -, -, -, -, -, -, e0, -⟩ := idx_facts t
  show V m c main_arg7 (((cfg0.win 6).blk t).view.emb y) = V m c main_arg7 y
  refine congrArg (V m c main_arg7) (funext fun a => Fin.ext ?_)
  match a with
  | ⟨0, _⟩ => show win0_6.index t (0 : Fin 1) * 1024 + 1 * (y 0).val = (y 0).val; omega

/-- The output array as the region computes it from the seven arrays it is launched on. -/
def arrFn (c : Dev nD) : S8x256x64x1024.Idx → EReal :=
  Cert.Joint.logits7 (V m c main_arg0) (V m c main_arg1) (V m c main_v0) (V m c main_v1) (V m c main_v3) (V m c main_v2)
    (V m c main_arg7)

/-- WHAT POINT `t` WRITES BACK is block `t` of `arrFn`. -/
theorem flushed_eq (c : Dev nD) (t : Fin cfg0.N) :
    (dats m 0 c).flushed 7 t = ((cfg0.win 7).blk t).view.read (Elt Ideal) (arrFn m c) := by
  refine (Cert.KernelIdeal.Value.flushed7 m c t).trans ?_
  refine (congrArg ((cfg0.win 7).cut (grid0.coords t)) (out_eq (iblk m c 0 t) (iblk m c 1 t) (iblk m c 2 t) (iblk m c 3 t)
    (iblk m c 4 t) (iblk m c 5 t) (iblk m c 6 t))).trans ?_
  obtain ⟨-, -, -, -, -, -, -, -, -, -, -, -, -, -, e2, e3, hb, hti⟩ := idx_facts t
  funext y
  obtain ⟨z, p, r, v, rfl⟩ : ∃ (z : Fin 1) (p : Fin 32) (r : Fin 64) (v : Fin 1024), y = ix4 z p r v :=
    ⟨y 0, y 1, y 2, y 3, eq_ix4 y⟩
  have hz := z.isLt
  have hE : ((cfg0.win 7).blk t).view.emb (ix4 z p r v)
      = ix4 (⟨win0_7.index t (0 : Fin 4), hb⟩ : Fin 8) (⟨win0_7.index t (1 : Fin 4) * 32 + p.val, by omega⟩ : Fin 256) r v :=
    funext fun a => Fin.ext (by
      match a with
      | ⟨0, _⟩ => show win0_7.index t (0 : Fin 4) * 1 + 1 * z.val = win0_7.index t (0 : Fin 4); omega
      | ⟨1, _⟩ => show win0_7.index t (1 : Fin 4) * 32 + 1 * p.val = win0_7.index t (1 : Fin 4) * 32 + p.val; omega
      | ⟨2, _⟩ => show win0_7.index t (2 : Fin 4) * 64 + 1 * r.val = r.val; omega
      | ⟨3, _⟩ => show win0_7.index t (3 : Fin 4) * 1024 + 1 * v.val = v.val; omega)
  show blockAt (iblk m c 0 t) (iblk m c 1 t) (iblk m c 2 t) (iblk m c 3 t) (iblk m c 4 t) (iblk m c 5 t) (iblk m c 6 t) p r v
    = arrFn m c (((cfg0.win 7).blk t).view.emb (ix4 z p r v))
  rw [hE]
  show _ = Cert.Joint.logit7 (V m c main_arg0) (V m c main_arg1) (V m c main_v0) (V m c main_v1) (V m c main_v3) (V m c main_v2)
    (V m c main_arg7) (⟨win0_7.index t (0 : Fin 4), hb⟩ : Fin 8) (⟨win0_7.index t (1 : Fin 4) * 32 + p.val, by omega⟩ : Fin 256) r v
  unfold blockAt Cert.Joint.logit7
  simp only [read0 m c t 0 p (⟨win0_7.index t (0 : Fin 4), hb⟩ : Fin 8) (⟨win0_7.index t (1 : Fin 4) * 32 + p.val, by omega⟩ : Fin 256) rfl rfl,
    read1 m c t 0 r (⟨win0_7.index t (0 : Fin 4), hb⟩ : Fin 8) rfl, read2, read3, read4, read5, read6]

/-- An index of the array is in point `t`'s block iff each coordinate is in the block's range on its axis. -/
theorem mem_blk (t : Fin cfg0.N) (i : S8x256x64x1024.Idx) :
    i ∈ ((cfg0.win 7).blk t).view.set ↔ ∀ a : Fin 4, win0_7.index t a * S1x32x64x1024.size a ≤ (i a).val
      ∧ (i a).val < win0_7.index t a * S1x32x64x1024.size a + S1x32x64x1024.size a := by
  show i ∈ ((View.whole main_v4).slice (win0_7.rect t)).set ↔ _
  rw [View.set_slice_whole, Rect.mem_set_unit]
  exact Iff.rfl

/-- Every index of the output array lies in some point's block: `(b, t, u, v)` in the block of `(b, t / 32)`. -/
theorem cover (i : S8x256x64x1024.Idx) :
    ∃ t : Fin cfg0.N, (cfg0.win 7).flush t = true ∧ i ∈ ((cfg0.win 7).blk t).view.set := by
  have h0 : (i 0).val < 8 := (i 0).isLt
  have h1 : (i 1).val < 256 := (i 1).isLt
  have h2 : (i 2).val < 64 := (i 2).isLt
  have h3 : (i 3).val < 1024 := (i 3).isLt
  obtain ⟨t, ht⟩ := idx_onto ⟨(i 0).val, h0⟩ ⟨(i 1).val / 32, by omega⟩
  have q0 : win0_7.index t (0 : Fin 4) = (i 0).val := congrFun ht 0
  have q1 : win0_7.index t (1 : Fin 4) = (i 1).val / 32 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 32 ≤ (i 1).val ∧ (i 1).val < win0_7.index t (1 : Fin 4) * 32 + 32; omega
  | ⟨2, _⟩ => show win0_7.index t (2 : Fin 4) * 64 ≤ (i 2).val ∧ (i 2).val < win0_7.index t (2 : Fin 4) * 64 + 64; omega
  | ⟨3, _⟩ => show win0_7.index t (3 : Fin 4) * 1024 ≤ (i 3).val ∧ (i 3).val < win0_7.index t (3 : Fin 4) * 1024 + 1024; omega

/-- The output array after the run is `arrFn`. -/
theorem final (c : Dev nD) : (dats m 0 c).arrAt 7 cfg0.N = arrFn m c :=
  (dats m 0 c).arrAt_eq_of_cover 7 (arrFn m c) (fun t _ => flushed_eq m c t) cover

/-- Over the arguments as launched, `arrFn` is the joint network. -/
theorem arrFn_eq (c : Dev nD) :
    arrFn m c = Cert.Joint.logits (encA m c) (predA m c) (wEnc m c) (bEnc m c) (wPred m c) (bPred m c) (wJoint m c) (bJoint m c) := by
  unfold arrFn
  rw [V_main_arg0, V_main_arg1, V_main_arg7, V_v0, V_v1, V_v2, V_v3]
  exact Cert.Joint.logits7_sum _ _ _ _ _ _ _ _

/-- The kernel's run: every weakly fair execution terminates with the result array at the joint network of the eight
    arguments, the arguments unchanged. -/
theorem run : θ_run defs (onTc (τ := τ) (main (F := Ideal))) ⟨m, fun _ => 0, ρ⟩ fun r => ∀ c : Dev nD,
      r.2.mem ((c : Thread nD τ).loc main_v4)
        = Cert.Joint.logits (encA m c) (predA m c) (wEnc m c) (bEnc m c) (wPred m c) (bPred m c) (wJoint m c) (bJoint m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (arrFn_eq m c)), (h c).2⟩)
    (Cert.KernelIdeal.Value.run_blocks m ρ)

end Cert.Joint.Kernel

end
-- ==== Proof.lean ====
/-
  The fused RNN-T joint kernel against its jnp reference, over the extended reals.

  Both programs compute, for batch b, encoder frame t, prediction step u and vocabulary entry v,
      logit(b,t,u,v) = Σ_j tanh (A(b,t,j) + P(b,u,j) + b_enc[j] + b_pred[j])·W_joint[j,v] + b_joint[v],
  with A = enc·W_enc and P = pred·W_pred. The reference adds each bias to its own projection and then adds the two
  projections; the kernel sums the two biases on the host first and adds the sum on the prediction side, tiles the
  (b, t) plane into 8 × 8 blocks of 32 frames and splits the 64 prediction steps of a block into four chunks of 16.
  Tiling, chunking and the grouping of a sum do not change it, and neither does the regrouping of the four-term sum
  inside `tanh`: addition on the extended reals is commutative and associative also at the infinities, so the
  precondition (finite inputs) is never opened. Casts between float formats are the identity here.

  `Cert.Joint.Kernel.run`: the kernel's result array is the joint network `Cert.Joint.logits` of the arguments (the block
  each grid point writes, then the cover of the array by the blocks). `Cert.Joint.Ref.result_eq`: so is the
  reference's, read one host operation at a time. The three frames are the programs' runs with the result dropped;
  the idealization rewrote nothing, so `preserves` has no conjunct.
-/
import proofs.«430496_j6545530159178_3_alg».proof.Defs
import proofs.«430496_j6545530159178_3_alg».proof.Proof.Gen.Kernel
import proofs.«430496_j6545530159178_3_alg».proof.Proof.Gen.Kernel.Skeleton
import proofs.«430496_j6545530159178_3_alg».proof.Proof.Gen.Kernel.Launch
import proofs.«430496_j6545530159178_3_alg».proof.Proof.Gen.Kernel.Points
import proofs.«430496_j6545530159178_3_alg».proof.Proof.Gen.Kernel.Frame
import proofs.«430496_j6545530159178_3_alg».proof.Proof.Gen.KernelIdeal
import proofs.«430496_j6545530159178_3_alg».proof.Proof.Gen.KernelIdeal.Skeleton
import proofs.«430496_j6545530159178_3_alg».proof.Proof.Gen.KernelIdeal.Launch
import proofs.«430496_j6545530159178_3_alg».proof.Proof.Gen.KernelIdeal.Points
import proofs.«430496_j6545530159178_3_alg».proof.Proof.Gen.KernelIdeal.Frame
import proofs.«430496_j6545530159178_3_alg».proof.Proof.Gen.ReferenceIdeal
import proofs.«430496_j6545530159178_3_alg».proof.Proof.Gen.Pre_finite_inputs
import proofs.«430496_j6545530159178_3_alg».proof.Proof.Gen.KernelIdeal.Value
import proofs.«430496_j6545530159178_3_alg».proof.Proof.Gen.ReferenceIdeal.Run
import proofs.«430496_j6545530159178_3_alg».proof.Proof.Gen.ReferenceIdeal.Read
import proofs.«430496_j6545530159178_3_alg».proof.Proof.RefJoint
import proofs.«430496_j6545530159178_3_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories agreeing on the eight arguments both programs end with the joint network of those arguments. -/
theorem algebraic : Cert.algebraic_KernelIdeal_ReferenceIdeal := by
  intro m ρ m' ρ' _ hagree
  refine ⟨_, Cert.Joint.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Joint.Ref.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
